-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S8192x1024 .f32) (main_arg1 : FVec F S2048x1024 .f32) (main_arg2 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S8192x1024 : Shape := ⟨2, ![8192, 1024]⟩
abbrev S2048x1024 : Shape := ⟨2, ![2048, 1024]⟩
abbrev S8192x2048 : Shape := ⟨2, ![8192, 2048]⟩
abbrev S512x512 : Shape := ⟨2, ![512, 512]⟩
abbrev S_ : Shape := ⟨0, ![]⟩
abbrev S2048 : Shape := ⟨1, ![2048]⟩
abbrev S1x2048 : Shape := ⟨2, ![1, 2048]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .f32⟩
  | .hbm, ⟨3, _⟩ => ⟨S8192x2048, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v24 : BitVec 1 := Scalar.cmpi .eq arg2 c1_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  transposes_S512x512_p1_0_S512x512 : S512x512.Transposes [1, 0] S512x512
  reducesTo_S2048x1024_S2048_d1 : S2048x1024.ReducesTo [1] S2048
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x1024.size a
  hwx0_0 : ∀ i : grid0.Coords, EltTy.bits .f32 = 32 ∨ (Rect.block (s := S8192x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x1024.size a
  hwx0_1 : ∀ i : grid0.Coords, EltTy.bits .f32 = 32 ∨ (Rect.block (s := S2048x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x1024.size a
  hwx0_2 : ∀ i : grid0.Coords, EltTy.bits .f32 = 32 ∨ (Rect.block (s := S2048x1024) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x2048.size a
  hwx0_3 : ∀ i : grid0.Coords, EltTy.bits .f32 = 32 ∨ (Rect.block (s := S8192x2048) S512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S2048x1024 : Shape := ⟨2, ![2048, 1024]⟩
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S8192x2048, .f32⟩
  | .hbm, ⟨5, _⟩ => ⟨S2048x1024, .f32⟩
  | .hbm, ⟨6, _⟩ => ⟨S8192x2048, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x1024_S2048x1024_S8192x2048_1_1_0_0_n_n_wf : DotDims.WF S8192x1024 S2048x1024 S8192x2048 [1] [1] [0] [0] [] []

variable [Facts₀]

def dot_S8192x1024_S2048x1024_S8192x2048_1_1_0_0_n_n : DotDims S8192x1024 S2048x1024 S8192x2048 where
  lhsContracting := [1]
  rhsContracting := [1]
  lhsNonContracting := [0]
  rhsNonContracting := [0]
  lhsBatch := []
  rhsBatch := []
  wf := dot_S8192x1024_S2048x1024_S8192x2048_1_1_0_0_n_n_wf

class Facts : Prop extends Facts₀ where

variable [Facts]
-- ==== Proof.Spec.lean ====
/-
  The distance before its class constant, as two index-by-index functions of the three argument arrays
  x [8192, 1024], centers [2048, 1024] and sigma [2048, 1024] over the extended reals.

  * `refRaw` at (b, i): the sum over all 1024 columns d of x(b,d)² · sigma(i,d), minus twice the sum over d of
    x(b,d) · (sigma(i,d) · centers(i,d)).
  * `accRaw` at (b, i): the same two sums taken over the two halves of the columns, 0..511 and 512..1023, the
    half's difference added to a running value that starts at zero: (0 + part 0) + part 1.

  The two are equal when every entry of the three arrays is a real number: then every sum is a real number,
  a sum over 1024 columns is the sum of its two halves, and the rest is arithmetic in the reals. With an
  infinite entry they need not be (a difference of two infinities is not re-associable).
-/
import Idealize.ShloMosaic.PureOps.Ideal.Laws
import Idealize.ShloMosaic.Lib.ValueIdx

noncomputable section

namespace Cert.Dist

open Idealize.ShloMosaic Idealize.ShloMosaic.ValueIdx
open scoped BigOperators

abbrev SX : Shape := ⟨2, ![8192, 1024]⟩
abbrev SC : Shape := ⟨2, ![2048, 1024]⟩
abbrev SO : Shape := ⟨2, ![8192, 2048]⟩
abbrev SB : Shape := ⟨2, ![512, 512]⟩

/-- The factor in front of the cross term: the f32 word of 2.0. -/
def two : EReal := Ideal.ofBits .f32 0x40000000#32

theorem two_eq : two = ((2 : ℝ) : EReal) := by
  unfold two
  simp [Ideal.ofBits, Ideal.ieee, -EReal.coe_mul]; norm_num

/-- Column d of half k of the 1024 columns. -/
def col (k : Fin 2) (d : Fin 512) : Fin 1024 := ⟨512 * k.val + d.val, by have := k.isLt; have := d.isLt; omega⟩

/-- Row p of the I-th block of 512 rows of x. -/
def rowX (I : Fin 16) (p : Fin 512) : Fin 8192 := ⟨512 * I.val + p.val, by have := I.isLt; have := p.isLt; omega⟩

/-- Row q of the J-th block of 512 classes. -/
def rowC (J : Fin 4) (q : Fin 512) : Fin 2048 := ⟨512 * J.val + q.val, by have := J.isLt; have := q.isLt; omega⟩

/-- What one [512, 512] block triple adds at the block entry (p, q): over the block's 512 columns, the sum of
    x0(p,d)² · x1(q,d) minus twice the sum of x0(p,d) · (x1(q,d) · x2(q,d)). -/
def blockPart (x0 x1 x2 : SB.Idx → EReal) (p q : Fin 512) : EReal :=
  (∑ d : Fin 512, (x0 (ix2 p d) * x0 (ix2 p d)) * x1 (ix2 q d))
    - two * ∑ d : Fin 512, x0 (ix2 p d) * (x1 (ix2 q d) * x2 (ix2 q d))

/-- The same over half k of the columns of the whole arrays, at (b, i). -/
def part (x : SX.Idx → EReal) (ce sg : SC.Idx → EReal) (k : Fin 2) (b : Fin 8192) (i : Fin 2048) : EReal :=
  (∑ d : Fin 512, (x (ix2 b (col k d)) * x (ix2 b (col k d))) * sg (ix2 i (col k d)))
    - two * ∑ d : Fin 512, x (ix2 b (col k d)) * (sg (ix2 i (col k d)) * ce (ix2 i (col k d)))

/-- The running value after both halves, started at zero. -/
def accAt (x : SX.Idx → EReal) (ce sg : SC.Idx → EReal) (b : Fin 8192) (i : Fin 2048) : EReal :=
  (0 + part x ce sg 0 b i) + part x ce sg 1 b i

def accRaw (x : SX.Idx → EReal) (ce sg : SC.Idx → EReal) : SO.Idx → EReal :=
  fun j => accAt x ce sg (j 0) (j 1)

/-- The two full-width sums at (b, i). -/
def refAt (x : SX.Idx → EReal) (ce sg : SC.Idx → EReal) (b : Fin 8192) (i : Fin 2048) : EReal :=
  (∑ k : Fin 1024, (x (ix2 b k) * x (ix2 b k)) * sg (ix2 i k))
    - two * ∑ k : Fin 1024, x (ix2 b k) * (sg (ix2 i k) * ce (ix2 i k))

def refRaw (x : SX.Idx → EReal) (ce sg : SC.Idx → EReal) : SO.Idx → EReal :=
  fun j => refAt x ce sg (j 0) (j 1)

/-- A finite sum of real numbers, read in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over 1024 columns is the sum over the two halves. -/
theorem sum_halves (f : Fin 1024 → ℝ) : ∑ k : Fin 1024, f k = (∑ d : Fin 512, f (col 0 d)) + ∑ d : Fin 512, f (col 1 d) := by
  have h := Fin.sum_univ_add (a := 512) (b := 512) (f : Fin (512 + 512) → ℝ)
  refine h.trans ?_
  congr 1

/-- With real entries the two-half running value is the full-width difference. -/
theorem accAt_eq_refAt (xr : SX.Idx → ℝ) (cr sr : SC.Idx → ℝ) (b : Fin 8192) (i : Fin 2048) :
    accAt (fun j => (xr j : EReal)) (fun j => (cr j : EReal)) (fun j => (sr j : EReal)) b i
      = refAt (fun j => (xr j : EReal)) (fun j => (cr j : EReal)) (fun j => (sr j : EReal)) b i := by
  unfold accAt refAt part
  simp only [two_eq, ← EReal.coe_mul, coe_sum, ← EReal.coe_sub, ← EReal.coe_add, ← EReal.coe_zero]
  rw [sum_halves (fun k => xr (ix2 b k) * xr (ix2 b k) * sr (ix2 i k)),
    sum_halves (fun k => xr (ix2 b k) * (sr (ix2 i k) * cr (ix2 i k)))]
  congr 1
  ring

theorem accRaw_eq_refRaw (x : SX.Idx → EReal) (ce sg : SC.Idx → EReal)
    (hx : ∀ j, ∃ r : ℝ, x j = (r : EReal)) (hc : ∀ j, ∃ r : ℝ, ce j = (r : EReal)) (hs : ∀ j, ∃ r : ℝ, sg j = (r : EReal)) :
    accRaw x ce sg = refRaw x ce sg := by
  choose xr hxr using hx
  choose cr hcr using hc
  choose sr hsr using hs
  obtain rfl : x = fun j => (xr j : EReal) := funext hxr
  obtain rfl : ce = fun j => (cr j : EReal) := funext hcr
  obtain rfl : sg = fun j => (sr j : EReal) := funext hsr
  funext j
  exact accAt_eq_refAt xr cr sr (j 0) (j 1)

end Cert.Dist

end
-- ==== Proof.Finite.lean ====
import proofs.«149820_j89008902242835_1_alg».proof.Pre_finite_inputs
import proofs.«149820_j89008902242835_1_alg».proof.Proof.Gen.Pre_finite_inputs
import Idealize.ShloMosaic.Lib.ReduceAll
import Idealize.ShloMosaic.Lib.ValueIdx
import Idealize.ShloMosaic.PureOps.Ideal

/-!
  The precondition on the three float inputs, read at the ideal values.

  The printed predicate computes, for each of the three arrays, the conjunction over all entries of
  `|a| < +∞`, and joins the three answers by `and`. At the ideal values a float is an extended real, the
  word `0x7F800000` denotes `⊤`, and `|a|` is `max a (-a)`. So the predicate being true says that no entry is
  `⊤` or `⊥`: every entry is (the image of) a real number. That is all this module proves.
-/

namespace Cert.Dist

open Idealize.ShloMosaic Cert.Pre_finite_inputs

/-- The shape of a scalar has exactly one index: a function out of the empty set of axes. -/
instance subsingleton_scalarIdx : Subsingleton S_.Idx := ⟨fun a b => funext fun d => d.elim0⟩

/-- The f32 word of positive infinity denotes `⊤`. -/
theorem ofBits_posInf : Ideal.ofBits .f32 0x7F800000#32 = (⊤ : EReal) := by
  simp [Ideal.ofBits, Ideal.ieee]

/-- One entry. If `max a (-a) < ⊤` holds (as the comparison's answer being the word 1 says), then `a` is
    neither `⊤` (where `max a (-a) = ⊤`) nor `⊥` (where `-a = ⊤`, so again `max a (-a) = ⊤`); the one case of an
    extended real that is left is a real number. -/
theorem real_of_abs_lt_posInf (a : EReal)
    (h : Ideal.cmp .olt (max a (-a)) (Ideal.ofBits .f32 0x7F800000#32) = 1#1) : ∃ r : ℝ, a = (r : EReal) := by
  rw [ofBits_posInf] at h
  induction a using EReal.rec with
  | bot => simp [Ideal.cmp] at h
  | coe r => exact ⟨r, rfl⟩
  | top => simp [Ideal.cmp] at h

/-- The precondition, true, makes every entry of each of the three arrays a real number: the outer two
    `and`s split the answer into the three arrays' answers, a conjunction over all entries that is true is true
    at each entry, and an entry's answer is the comparison `max a (-a) < ⊤` of the lemma above. -/
theorem real_of_finite_inputs [Cert.Pre_finite_inputs.Facts]
    (x : FVec Ideal Cert.Pre_finite_inputs.S8192x1024 .f32) (ce sg : FVec Ideal Cert.Pre_finite_inputs.S2048x1024 .f32)
    (h : Cert.Pre_finite_inputs.fn (F := Ideal) x ce sg = fun _ => 1#1) :
    (∀ j, ∃ r : ℝ, x j = (r : EReal)) ∧ (∀ j, ∃ r : ℝ, ce j = (r : EReal)) ∧ (∀ j, ∃ r : ℝ, sg j = (r : EReal)) := by
  have h0 := congrFun h ValueIdx.ix0
  dsimp only [Cert.Pre_finite_inputs.fn, andi] at h0
  obtain ⟨hxce, hsg⟩ := IntOp.andi_eq_one.1 h0
  obtain ⟨hx, hce⟩ := IntOp.andi_eq_one.1 hxce
  refine ⟨fun j => ?_, fun j => ?_, fun j => ?_⟩
  · exact real_of_abs_lt_posInf (x j) (Host.reduce_andi_all _ _ _ _ _ hx j)
  · exact real_of_abs_lt_posInf (ce j) (Host.reduce_andi_all _ _ _ _ _ hce j)
  · exact real_of_abs_lt_posInf (sg j) (Host.reduce_andi_all _ _ _ _ _ hsg j)

end Cert.Dist
-- ==== Proof.RefSide.lean ====
/-
  The reference's distance before its class constant, read at an entry: the first contraction gives, at (b, i),
  the sum over the 1024 columns of x(b,k)² · sigma(i,k); the second the sum of x(b,k) · (sigma(i,k) · centers(i,k));
  their difference with the factor 2 in front of the second is the full-width form `Cert.Dist.refRaw`.
-/
import proofs.«149820_j89008902242835_1_alg».proof.Proof.Gen.ReferenceIdeal.Run
import proofs.«149820_j89008902242835_1_alg».proof.Proof.Gen.ReferenceIdeal.Read
import proofs.«149820_j89008902242835_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

theorem lidx1_eq (b : Fin 8192) (q : Fin 2048) (k : Fin 1024) : lidx_main_v1 (ix2 b q) k = ix2 b k :=
  funext fun a => Fin.ext (by match a with | ⟨0, _⟩ => rfl | ⟨1, _⟩ => rfl)
theorem ridx1_eq (b : Fin 8192) (q : Fin 2048) (k : Fin 1024) : ridx_main_v1 (ix2 b q) k = ix2 q k :=
  funext fun a => Fin.ext (by match a with | ⟨0, _⟩ => rfl | ⟨1, _⟩ => rfl)
theorem lidx3_eq (b : Fin 8192) (q : Fin 2048) (k : Fin 1024) : lidx_main_v3 (ix2 b q) k = ix2 b k :=
  funext fun a => Fin.ext (by match a with | ⟨0, _⟩ => rfl | ⟨1, _⟩ => rfl)
theorem ridx3_eq (b : Fin 8192) (q : Fin 2048) (k : Fin 1024) : ridx_main_v3 (ix2 b q) k = ix2 q k :=
  funext fun a => Fin.ext (by match a with | ⟨0, _⟩ => rfl | ⟨1, _⟩ => rfl)

/-- The reference's difference of its two contractions is the full-width form, entry by entry. -/
theorem raw_eq (x0 : (⟨S8192x1024, .f32⟩ : BufTy).Contents (Elt Ideal)) (x1 x2 : (⟨S2048x1024, .f32⟩ : BufTy).Contents (Elt Ideal)) :
    val_main_v9 (F := Ideal) x0 x1 x2 = Cert.Dist.refRaw x0 x1 x2 := by
  funext i
  obtain ⟨b, q, rfl⟩ : ∃ (b : Fin 8192) (q : Fin 2048), i = ix2 b q := ⟨i 0, i 1, eq_ix2 i⟩
  rw [val_main_v9_apply, val_main_v8_apply, val_main_v1_apply, val_main_v3_apply, val_main_v7_apply, val_main_cst_0_apply]
  simp only [val_main_v0_apply, val_main_v2_apply, lidx1_eq, ridx1_eq, lidx3_eq, ridx3_eq, Ideal.mulf_def, Ideal.subf_def, Ideal.ofBits_def]
  rfl

end Cert.ReferenceIdeal.RefValue

end
-- ==== Proof.Pieces.lean ====
/-
  What the kernel body leaves behind, as values. The body keeps a [512, 512] running block in a scratch buffer.
  At a point whose column-block index is 0 it first fills the scratch with the zero block, then stores into it
  the update of that zero block by the point's three input blocks. At a point whose column-block index is 1 it
  stores the update of what the point before left, and copies the scratch into the output block.
  In each case the last store covers the whole buffer, so the buffer reads back as that store's value.
-/
import proofs.«149820_j89008902242835_1_alg».proof.Proof.Gen.KernelIdeal.Frame
import Idealize.ShloMosaic.Lib.Pipeline.Value

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Column-block 0: the scratch ends at the update of the zero block. -/
theorem scratch_first (c : Dev nD) (i : grid0.Coords) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (hc0 : cond0_0 i) (hc1 : ¬cond0_1 i) (x0 x1 x2 : Vec F S512x512 .f32) :
    sout0_A_0 c i arg3 harg3 arg4 harg4 arg5 harg5 arg6 harg6 arg7 harg7 hc0 hc1 x0 x1 x2
      = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, View.ld_unit_zero (S := S512x512) hz]

/-- Column-block 1: the scratch ends at the update of what the point before left in it. -/
theorem scratch_second (c : Dev nD) (i : grid0.Coords) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (hc0 : ¬cond0_0 i) (hc1 : cond0_1 i) (x0 x1 x2 xs0 : Vec F S512x512 .f32) :
    sout0_B_0 c i arg3 harg3 arg4 harg4 arg5 harg5 arg6 harg6 arg7 harg7 hc0 hc1 x0 x1 x2 xs0
      = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x512) hz]
  simp only [View.readAt_eq_ld, harg3.read_unread, harg4.read_unread, harg5.read_unread, harg7.read_unread, View.ld_unit_zero (S := S512x512) hz]

/-- Column-block 1: the output block is a copy of that scratch. -/
theorem out_second (c : Dev nD) (i : grid0.Coords) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (hc0 : ¬cond0_0 i) (hc1 : cond0_1 i) (x0 x1 x2 xs0 : Vec F S512x512 .f32) :
    out0_B_3 c i arg3 harg3 arg4 harg4 arg5 harg5 arg6 harg6 arg7 harg7 hc0 hc1 x0 x1 x2 xs0
      = k0_pay2 x0 x1 x2 xs0 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero (S := S512x512) hz, View.readCov_unit_zero (S := S512x512) _ hz]
  simp only [View.readAt_eq_ld, harg3.read_unread, harg4.read_unread, harg5.read_unread, harg7.read_unread, View.ld_unit_zero (S := S512x512) hz]

end Cert.KernelIdeal.Pieces

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.Payload.lean ====
/-
  The body's arithmetic read at one entry, over the extended reals. The update of a running block `acc` by the
  input blocks x0 (rows of x), x1 (rows of sigma) and x2 (rows of centers) is, at the entry (p, q),
    acc(p,q) + ( Σ_d x0(p,d)² · x1(q,d)  −  2 · Σ_d x0(p,d) · (x1(q,d) · x2(q,d)) ):
  each matrix product contracts the columns of its left operand with the rows of a transposed block, the
  transposed block at (d, q) being the block at (q, d); the narrowing to bf16 is the identity on extended reals.
  The block the reset stores is zero everywhere.
-/
import proofs.«149820_j89008902242835_1_alg».proof.Proof.Gen.KernelIdeal.Skeleton
import proofs.«149820_j89008902242835_1_alg».proof.Proof.LibPlainDot
import proofs.«149820_j89008902242835_1_alg».proof.Proof.Spec
import Idealize.ShloMosaic.Lib.Pipeline.Value
import Idealize.ShloMosaic.Lib.ValueIdx

noncomputable section

namespace Cert.KernelIdeal.Payload

open Idealize.ShloMosaic Idealize.ShloMosaic.ValueIdx
open Cert.KernelIdeal Cert.KernelIdeal.Gen
open scoped BigOperators

/-- A square block transposed, read at (d, q), is the block at (q, d). -/
theorem transpose_sq_apply {α : Type} (v : S512x512.Idx → α) (h : S512x512.Transposes [1, 0] S512x512) (d q : Fin 512) :
    transpose S512x512 [1, 0] v h (ix2 d q) = v (ix2 q d) :=
  transpose_apply [1, 0] v h (ix2 d q) (ix2 q d) (fun b => by match b with | ⟨0, _⟩ => rfl | ⟨1, _⟩ => rfl)

/-- The reset block is zero at every entry. -/
theorem reset_apply (j : S512x512.Idx) : k0_pay1 (F := Ideal) j = 0 := by
  unfold k0_pay1
  simp only [shapeCast_self]
  show Ideal.ofBits .f32 0x00000000#32 = 0
  exact Ideal.ofBits_zero_f32

/-- The update at the entry (p, q). -/
theorem update_apply (x0 x1 x2 acc : Vec Ideal S512x512 .f32) (p q : Fin 512) :
    k0_pay2 (F := Ideal) x0 x1 x2 acc (ix2 p q) = acc (ix2 p q) + Cert.Dist.blockPart x0 x1 x2 p q := by
  unfold k0_pay2 Cert.Dist.blockPart
  simp only [shapeCast_self]
  rw [addf_apply, subf_apply, mulf_apply, broadcast_apply]
  simp only [matmul]
  rw [PlainDot.matmul_zero_apply _ rfl rfl rfl rfl rfl rfl, PlainDot.matmul_zero_apply _ rfl rfl rfl rfl rfl rfl]
  simp only [truncf_apply, mulf_apply]
  have e1 : ∀ k : Fin 512, transpose S512x512 [1, 0] (truncf (F := Ideal) FTy.bf16 (x1 : FVec Ideal S512x512 .f32) bitsLt_bf16_f32) transposes_S512x512_p1_0_S512x512 (ix2 k q)
      = x1 (ix2 q k) := fun k => transpose_sq_apply _ _ k q
  have e2 : ∀ k : Fin 512, transpose S512x512 [1, 0] (truncf (F := Ideal) FTy.bf16 (mulf (F := Ideal) (x1 : FVec Ideal S512x512 .f32) (x2 : FVec Ideal S512x512 .f32)) bitsLt_bf16_f32) transposes_S512x512_p1_0_S512x512 (ix2 k q)
      = x1 (ix2 q k) * x2 (ix2 q k) := fun k => transpose_sq_apply _ _ k q
  simp only [e1, e2]
  rfl

end Cert.KernelIdeal.Payload

end
-- ==== Proof.KernelValue.lean ====
/-
  What the kernel leaves in its result array, over the extended reals.

  The grid has 16 x 4 x 2 points, numbered t = (I·4 + J)·2 + k: I a block of 512 rows of x, J a block of 512
  classes, k a half of the 1024 columns. At the point t the three input blocks are x[512 I .., 512 k ..],
  sigma[512 J .., 512 k ..] and centers[512 J .., 512 k ..]. The running block is reset and updated at k = 0,
  updated again at k = 1, and written out at k = 1 to the result's block (I, J). So the result array holds, at
  (b, i), the two-half running value `Cert.Dist.accAt` of the three argument arrays.
-/
import proofs.«149820_j89008902242835_1_alg».proof.Proof.Pieces
import proofs.«149820_j89008902242835_1_alg».proof.Proof.Payload
import proofs.«149820_j89008902242835_1_alg».proof.Proof.Spec
import Idealize.ShloMosaic.Lib.Pipeline.Value
import Idealize.ShloMosaic.Lib.StableHlo.Run

set_option maxRecDepth 16384

noncomputable section

namespace Cert.KernelIdeal.DistValue

open Idealize.ShloMosaic Idealize.ShloMosaic.TcCoe Idealize.SL.Sem Idealize.ShloMosaic.ValueIdx
open Idealize.ShloMosaic.Pipeline (Dat)
open Cert.KernelIdeal Cert.KernelIdeal.Gen Cert.Dist
open scoped BigOperators

variable (m : (ℓ : Loc nD τ sig) → Buf (Elt Ideal) ℓ) (ρ : Dev nD → PrngReg)

/-! ## The arrays and the blocks, at their literal types -/

abbrev xarr (c : Dev nD) : SX.Idx → EReal := V m c main_arg0
abbrev carr (c : Dev nD) : SC.Idx → EReal := V m c main_arg1
abbrev sarr (c : Dev nD) : SC.Idx → EReal := V m c main_arg2
abbrev xblk (c : Dev nD) (t : Fin cfg0.N) : SB.Idx → EReal := iblk m c 0 t
abbrev sblk (c : Dev nD) (t : Fin cfg0.N) : SB.Idx → EReal := iblk m c 1 t
abbrev cblk (c : Dev nD) (t : Fin cfg0.N) : SB.Idx → EReal := iblk m c 2 t

/-- The point's three coordinates. -/
def rI (t : Fin cfg0.N) : Fin 16 := ⟨t.val / 8, by have h := t.isLt; have hN : cfg0.N = 128 := N_0; omega⟩
def cJ (t : Fin cfg0.N) : Fin 4 := ⟨t.val / 2 % 4, by omega⟩
def kK (t : Fin cfg0.N) : Fin 2 := ⟨t.val % 2, by omega⟩

/-- The printed index maps in closed form, decided over the grid. -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = t.val / 2 % 4 ∧ win0_2.index t (1 : Fin 2) = t.val % 2
    ∧ win0_3.index t (0 : Fin 2) = t.val / 8 ∧ win0_3.index t (1 : Fin 2) = t.val / 2 % 4 :=
  (by decide +kernel : ∀ t : Fin grid0.N, _)

/-- The x block at a point, at (p, d): row 512 I + p, column 512 k + d of x. -/
theorem xblk_apply (c : Dev nD) (t : Fin cfg0.N) (p d : Fin 512) :
    xblk m c t (ix2 p d) = xarr m c (ix2 (rowX (rI t) p) (col (kK t) d)) := by
  obtain ⟨e0, e1, -⟩ := idx_facts t
  show iblk m c 0 t (ix2 p d) = V m c main_arg0 _
  unfold iblk
  rw [View.read_apply]
  show V m c main_arg0 _ = V m c main_arg0 _
  congr 1
  funext a
  apply Fin.ext
  match a with
  | ⟨0, _⟩ => show win0_0.index t (0 : Fin 2) * 512 + 1 * p.val = 512 * (t.val / 8) + p.val; omega
  | ⟨1, _⟩ => show win0_0.index t (1 : Fin 2) * 512 + 1 * d.val = 512 * (t.val % 2) + d.val; omega

/-- The sigma block at a point, at (q, d): row 512 J + q, column 512 k + d of sigma. -/
theorem sblk_apply (c : Dev nD) (t : Fin cfg0.N) (q d : Fin 512) :
    sblk m c t (ix2 q d) = sarr m c (ix2 (rowC (cJ t) q) (col (kK t) d)) := by
  obtain ⟨-, -, e0, e1, -⟩ := idx_facts t
  show iblk m c 1 t (ix2 q d) = V m c main_arg2 _
  unfold iblk
  rw [View.read_apply]
  show V m c main_arg2 _ = V m c main_arg2 _
  congr 1
  funext a
  apply Fin.ext
  match a with
  | ⟨0, _⟩ => show win0_1.index t (0 : Fin 2) * 512 + 1 * q.val = 512 * (t.val / 2 % 4) + q.val; omega
  | ⟨1, _⟩ => show win0_1.index t (1 : Fin 2) * 512 + 1 * d.val = 512 * (t.val % 2) + d.val; omega

/-- The centers block at a point, at (q, d): row 512 J + q, column 512 k + d of centers. -/
theorem cblk_apply (c : Dev nD) (t : Fin cfg0.N) (q d : Fin 512) :
    cblk m c t (ix2 q d) = carr m c (ix2 (rowC (cJ t) q) (col (kK t) d)) := by
  obtain ⟨-, -, -, -, e0, e1, -⟩ := idx_facts t
  show iblk m c 2 t (ix2 q d) = V m c main_arg1 _
  unfold iblk
  rw [View.read_apply]
  show V m c main_arg1 _ = V m c main_arg1 _
  congr 1
  funext a
  apply Fin.ext
  match a with
  | ⟨0, _⟩ => show win0_2.index t (0 : Fin 2) * 512 + 1 * q.val = 512 * (t.val / 2 % 4) + q.val; omega
  | ⟨1, _⟩ => show win0_2.index t (1 : Fin 2) * 512 + 1 * d.val = 512 * (t.val % 2) + d.val; omega

/-- One block triple's contribution is the arrays' contribution over the point's half of the columns. -/
theorem blockPart_eq (c : Dev nD) (t : Fin cfg0.N) (p q : Fin 512) :
    blockPart (xblk m c t) (sblk m c t) (cblk m c t) p q
      = part (xarr m c) (carr m c) (sarr m c) (kK t) (rowX (rI t) p) (rowC (cJ t) q) := by
  unfold blockPart part
  simp only [xblk_apply, sblk_apply, cblk_apply]

/-! ## What the scratch and the output block hold -/

/-- After a point of the first half of the columns the scratch holds the update of the zero block. -/
theorem scratch_even (c : Dev nD) (t : Fin cfg0.N) (h0 : t.val % 2 = 0) :
    (outsAt0 m c t.val t.isLt).2
      = k0_pay2 (F := Ideal) (xblk m c t) (sblk m c t) (cblk m c t) (k0_pay1 (F := Ideal)) := by
  have h1 : ¬t.val % 2 = 1 := by omega
  rw [outsAt0_A m c t h0 h1]
  dsimp only
  exact Pieces.scratch_first c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk m c 0 t) (iblk m c 1 t) (iblk m c 2 t)

/-- The point before. -/
def prev (t : Fin cfg0.N) : Fin cfg0.N := ⟨t.val - 1, Nat.lt_of_le_of_lt (Nat.sub_le _ _) t.isLt⟩

/-- At a point of the second half the output block holds the update, by this point's blocks, of the update of
    the zero block by the blocks of the point before. -/
theorem out_odd (c : Dev nD) (t : Fin cfg0.N) (h1 : t.val % 2 = 1) :
    (outsAt0 m c t.val t.isLt).1
      = k0_pay2 (F := Ideal) (xblk m c t) (sblk m c t) (cblk m c t)
          (k0_pay2 (F := Ideal) (xblk m c (prev t)) (sblk m c (prev t)) (cblk m c (prev t)) (k0_pay1 (F := Ideal))) := by
  have h0 : ¬t.val % 2 = 0 := by omega
  rw [outsAt0_B m c t h0 h1]
  dsimp only
  rw [Pieces.out_second c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2]
  exact congrArg (k0_pay2 (F := Ideal) (xblk m c t) (sblk m c t) (cblk m c t))
    (scratch_even m c (prev t) (by show (t.val - 1) % 2 = 0; omega))

/-- So at a point of the second half the output block holds, at (p, q), the two-half running value of the arrays
    at row 512 I + p of x and class 512 J + q. -/
theorem out_odd_apply (c : Dev nD) (t : Fin cfg0.N) (h1 : t.val % 2 = 1) (p q : Fin 512) :
    (outsAt0 m c t.val t.isLt).1 (ix2 p q)
      = accAt (xarr m c) (carr m c) (sarr m c) (rowX (rI t) p) (rowC (cJ t) q) := by
  have hI : rI (prev t) = rI t := Fin.ext (by show (t.val - 1) / 8 = t.val / 8; omega)
  have hJ : cJ (prev t) = cJ t := Fin.ext (by show (t.val - 1) / 2 % 4 = t.val / 2 % 4; omega)
  have hk0 : kK (prev t) = 0 := Fin.ext (by show (t.val - 1) % 2 = 0; omega)
  have hk1 : kK t = 1 := Fin.ext (by show t.val % 2 = 1; omega)
  rw [out_odd m c t h1, Payload.update_apply, Payload.update_apply, Payload.reset_apply, blockPart_eq, blockPart_eq,
    hI, hJ, hk0, hk1]
  rfl

/-! ## The result array of the call -/

/-- What a point of the second half writes back is its block of the two-half running value of the arrays. -/
theorem flushed_eq (c : Dev nD) (t : Fin cfg0.N) (hf : (cfg0.win 3).flush t = true) :
    (dats m 0 c).flushed 3 t
      = ((cfg0.win 3).blk t).view.read (Elt Ideal) (accRaw (xarr m c) (carr m c) (sarr m c)) := by
  have h1 : t.val % 2 = 1 := (flush0_3 t).mp hf
  obtain ⟨-, -, -, -, -, -, e0, e1⟩ := idx_facts t
  show (cfg0.win 3).cut (grid0.coords t) ((dats m 0 c).after 3 t) = _
  rw [after0_3]
  funext y
  obtain ⟨p, q, rfl⟩ : ∃ (p q : Fin 512), y = ix2 p q := ⟨y 0, y 1, eq_ix2 y⟩
  refine (out_odd_apply m c t h1 p q).trans ?_
  rw [View.read_apply]
  show accAt _ _ _ _ _ = accAt _ _ _ ((((cfg0.win 3).blk t).view.emb (ix2 p q)) 0) ((((cfg0.win 3).blk t).view.emb (ix2 p q)) 1)
  congr 1
  · apply Fin.ext
    show 512 * (t.val / 8) + p.val = win0_3.index t (0 : Fin 2) * 512 + 1 * p.val
    omega
  · apply Fin.ext
    show 512 * (t.val / 2 % 4) + q.val = win0_3.index t (1 : Fin 2) * 512 + 1 * q.val
    omega

/-- An entry of the result is in a point's block when each coordinate lies in the block's range. -/
theorem mem_blk (t : Fin cfg0.N) (i : S8192x2048.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0).slice (win0_3.rect t)).set ↔ _
  rw [View.set_slice_whole, Rect.mem_set_unit]
  exact Iff.rfl

/-- Every entry (b, i) of the result lies in the block written at the point (b / 512, i / 512, 1). -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 128 := N_0
  let t : Fin cfg0.N := ⟨((i 0).val / 512 * 4 + (i 1).val / 512) * 2 + 1, by omega⟩
  have ht : t.val = ((i 0).val / 512 * 4 + (i 1).val / 512) * 2 + 1 := rfl
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- The call's result array after the run. -/
theorem final (c : Dev nD) : (dats m 0 c).arrAt 3 cfg0.N = accRaw (xarr m c) (carr m c) (sarr m c) :=
  (dats m 0 c).arrAt_eq_of_cover 3 (accRaw (xarr m c) (carr m c) (sarr m c)) (flushed_eq m c) covered

/-! ## After the call: the class constant and the sign -/

/-- The lines after the call, applied to a raw distance: the class constant, the sum over the columns of
    sigma · centers · centers started from zero, is added along the classes, and the sign is turned. -/
def finish (raw : FVec Ideal S8192x2048 .f32) (ce sg : FVec Ideal S2048x1024 .f32) : FVec Ideal S8192x2048 .f32 :=
  Host.negf (addf raw (broadcastInDim S8192x2048 ![0, 1] bcast_S1x2048_S8192x2048_0_1
    (broadcastInDim S1x2048 ![1] bcast_S2048_S1x2048_1
      (Host.reduceAdd (mulf (mulf sg ce) ce) (constant S_ .f32 0x00000000#32) reducesTo_S2048x1024_S2048_d1 h_S_))))

/-- The last buffer of the program after the lines that follow the call. -/
theorem tail_eq (c : Dev nD) :
    Pipeline.afterTail₀ cfgs (dats m) 0 (V0 m) [hostOps1] c main_v7
      = finish (accRaw (xarr m c) (carr m c) (sarr m c)) (carr m c) (sarr m c) := by
  unfold Pipeline.afterTail₀
  show StableHlo.after hostOps1 _ (Proc.devRef .tc main_v7) = _
  after_results
  have e3 : Pipeline.withArrays (cfgs 0).spec c (V0 m c) (fun w => (dats m 0 c).arrAt w (cfgs 0).N) (Proc.devRef .tc main_v0)
      = accRaw (xarr m c) (carr m c) (sarr m c) :=
    (Pipeline.withArrays_arr spec0 launch0.win.arr_inj c _ _ 3).trans (final m c)
  have e1 : Pipeline.withArrays (cfgs 0).spec c (V0 m c) (fun w => (dats m 0 c).arrAt w (cfgs 0).N) (Proc.devRef .tc main_arg2)
      = sarr m c :=
    (Pipeline.withArrays_arr spec0 launch0.win.arr_inj c _ _ 1).trans (((dats m 0 c).arrAt_in 1 rfl _).trans (A_eq m c 1))
  have e2 : Pipeline.withArrays (cfgs 0).spec c (V0 m c) (fun w => (dats m 0 c).arrAt w (cfgs 0).N) (Proc.devRef .tc main_arg1)
      = carr m c :=
    (Pipeline.withArrays_arr spec0 launch0.win.arr_inj c _ _ 2).trans (((dats m 0 c).arrAt_in 2 rfl _).trans (A_eq m c 2))
  rw [e3, e1, e2]
  rfl

/-! ## The run, read -/

/-- Every weakly fair execution of the program ends with its last buffer at the finished two-half running value of
    the argument arrays, and the three argument arrays as they were. -/
theorem run : θ_run defs (onTc (τ := τ) (main (F := Ideal))) ⟨m, fun _ => 0, ρ⟩ fun r => ∀ c : Dev nD,
      r.2.mem ((c.tc : Thread nD τ).loc main_v7)
        = finish (accRaw (m ((c.tc : Thread nD τ).loc main_arg0)) (m ((c.tc : Thread nD τ).loc main_arg1)) (m ((c.tc : Thread nD τ).loc main_arg2)))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 rfl (fun w => by fin_cases w <;> decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.DistValue

end
-- ==== Proof.lean ====
/-
  The kernel computes, for every row b of x and every class i, minus the distance
    Σ_d sigma(i,d) · (x(b,d) − centers(i,d))²  in its expanded form
    Σ_d x(b,d)² · sigma(i,d)  −  2 · Σ_d x(b,d) · (sigma(i,d) · centers(i,d))  +  Σ_d sigma(i,d) · centers(i,d)²,
  the first two sums inside a tiled call that walks the 1024 columns in two halves and adds each half's
  difference to a running block started at zero, the third in the lines after the call. The reference takes the
  first two sums at full width. Over the extended reals the two agree when every input entry is a real number,
  which is what the precondition says: then a full-width sum is the sum of its halves and the rest is arithmetic
  in the reals. The class constant and the final sign are the same lines on both sides and are never opened.
  The ideal pass rewrote nothing, so the kernel's idealization is its own text.
-/
import proofs.«149820_j89008902242835_1_alg».proof.Defs
import proofs.«149820_j89008902242835_1_alg».proof.Proof.Gen.Kernel
import proofs.«149820_j89008902242835_1_alg».proof.Proof.Gen.Kernel.Skeleton
import proofs.«149820_j89008902242835_1_alg».proof.Proof.Gen.Kernel.Launch
import proofs.«149820_j89008902242835_1_alg».proof.Proof.Gen.Kernel.Points
import proofs.«149820_j89008902242835_1_alg».proof.Proof.Gen.Kernel.Frame
import proofs.«149820_j89008902242835_1_alg».proof.Proof.Gen.KernelIdeal
import proofs.«149820_j89008902242835_1_alg».proof.Proof.Gen.KernelIdeal.Skeleton
import proofs.«149820_j89008902242835_1_alg».proof.Proof.Gen.KernelIdeal.Launch
import proofs.«149820_j89008902242835_1_alg».proof.Proof.Gen.KernelIdeal.Points
import proofs.«149820_j89008902242835_1_alg».proof.Proof.Gen.KernelIdeal.Frame
import proofs.«149820_j89008902242835_1_alg».proof.Proof.Gen.ReferenceIdeal
import proofs.«149820_j89008902242835_1_alg».proof.Proof.Gen.ReferenceIdeal.Run
import proofs.«149820_j89008902242835_1_alg».proof.Proof.Gen.ReferenceIdeal.Read
import proofs.«149820_j89008902242835_1_alg».proof.Proof.Gen.Pre_finite_inputs
import proofs.«149820_j89008902242835_1_alg».proof.Proof.Spec
import proofs.«149820_j89008902242835_1_alg».proof.Proof.Finite
import proofs.«149820_j89008902242835_1_alg».proof.Proof.RefSide
import proofs.«149820_j89008902242835_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2)
    (Cert.ReferenceIdeal.Value.run (F := Ideal) m ρ)

theorem preserves : Cert.preserves_Kernel_KernelIdeal := trivial

/-- Both programs end with their last buffer at the finished two-half running value of arguments that agree:
    the kernel by its run read back, the reference because its full-width difference is that running value when
    the entries are real numbers, under the same finishing lines. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => Cert.KernelIdeal.DistValue.finish
      (Cert.Dist.accRaw (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.DistValue.run m ρ)
    obtain ⟨h7, h0, h1, h2⟩ := h c
    exact ⟨h1, h2, h7, h0, h1, h2⟩
  · refine (θ_run Cert.ReferenceIdeal.defs _ _).mono (fun _ h c => ?_) (Cert.ReferenceIdeal.Value.run (F := Ideal) m' ρ')
    obtain ⟨h1, h2, h13, k0, k1, k2⟩ := h c
    obtain ⟨a0, a1, a2⟩ := hagree c
    refine ⟨h1.trans a1, h2.trans a2, h13.trans ?_, k0, k1, k2⟩
    obtain ⟨rx, rc, rs⟩ := Cert.Dist.real_of_finite_inputs _ _ _ (hpre c)
    rw [a0, a1, a2, Cert.ReferenceIdeal.Read.val_main_v13_eq]
    unfold Cert.ReferenceIdeal.Read.val_main_v13 Cert.ReferenceIdeal.Read.val_main_v12
    rw [Cert.ReferenceIdeal.RefValue.raw_eq, ← Cert.Dist.accRaw_eq_refRaw _ _ _ rx rc rs]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
